-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640x16x256 : Shape := ⟨3, ![640, 16, 256]⟩
abbrev S8192x16x256 : Shape := ⟨3, ![8192, 16, 256]⟩
abbrev S640 : Shape := ⟨1, ![640]⟩
abbrev S_ : Shape := ⟨0, ![]⟩

class Facts : Prop where
  bcast_S_S640x16x256 : S_.BroadcastsInDim S640x16x256 (![] : Fin 0 → Fin S640x16x256.rank)
  reducesTo_S640x16x256_S_d0_1_2 : S640x16x256.ReducesTo [0, 1, 2] S_
  h_S_ : 0 < S_.numel
  bcast_S_S8192x16x256 : S_.BroadcastsInDim S8192x16x256 (![] : Fin 0 → Fin S8192x16x256.rank)
  reducesTo_S8192x16x256_S_d0_1_2 : S8192x16x256.ReducesTo [0, 1, 2] S_

variable [Facts]

def fn {F : FTy → Type} [FloatOps F] (main_arg0 : FVec F S640x16x256 .f32) (main_arg1 : FVec F S8192x16x256 .f32) (main_arg2 : IVec S640 32) : IVec S_ 1 :=
  let main_v0 : FVec F S640x16x256 .f32 := Host.absf main_arg0
  let main_cst : FVec F S_ .f32 := constant S_ .f32 0x7F800000#32
  let main_v1 : FVec F S640x16x256 .f32 := broadcastInDim S640x16x256 ![] bcast_S_S640x16x256 main_cst
  let main_v2 : IVec S640x16x256 1 := cmpf .olt main_v0 main_v1
  let main_c : IVec S_ 1 := constantI S_ 1 1#1
  let main_v3 : IVec S_ 1 := (fun x v => Host.reduce IntOp.andi x v reducesTo_S640x16x256_S_d0_1_2 h_S_) main_v2 main_c
  let main_v4 : FVec F S8192x16x256 .f32 := Host.absf main_arg1
  let main_cst_0 : FVec F S_ .f32 := constant S_ .f32 0x7F800000#32
  let main_v5 : FVec F S8192x16x256 .f32 := broadcastInDim S8192x16x256 ![] bcast_S_S8192x16x256 main_cst_0
  let main_v6 : IVec S8192x16x256 1 := cmpf .olt main_v4 main_v5
  let main_c_1 : IVec S_ 1 := constantI S_ 1 1#1
  let main_v7 : IVec S_ 1 := (fun x v => Host.reduce IntOp.andi x v reducesTo_S8192x16x256_S_d0_1_2 h_S_) main_v6 main_c_1
  let main_v8 : IVec S_ 1 := andi main_v3 main_v7
  main_v8
-- ==== Kernel.lean ====
abbrev S640x16x256 : Shape := ⟨3, ![640, 16, 256]⟩
abbrev S8192x16x256 : Shape := ⟨3, ![8192, 16, 256]⟩
abbrev S640 : Shape := ⟨1, ![640]⟩
abbrev S_ : Shape := ⟨0, ![]⟩
abbrev S64x16x256 : Shape := ⟨3, ![64, 16, 256]⟩
abbrev S640x1 : Shape := ⟨2, ![640, 1]⟩
abbrev S64 : Shape := ⟨1, ![64]⟩
abbrev S64x1x1 : Shape := ⟨3, ![64, 1, 1]⟩
abbrev S64x16 : Shape := ⟨2, ![64, 16]⟩
abbrev S64x16x1 : Shape := ⟨3, ![64, 16, 1]⟩
abbrev S8192x64 : Shape := ⟨2, ![8192, 64]⟩
abbrev S512x16x256 : Shape := ⟨3, ![512, 16, 256]⟩
abbrev S512x64 : Shape := ⟨2, ![512, 64]⟩
abbrev S512x16 : Shape := ⟨2, ![512, 16]⟩
abbrev S512x16x1 : Shape := ⟨3, ![512, 16, 1]⟩
abbrev S8192x256 : Shape := ⟨2, ![8192, 256]⟩
abbrev S64x1x256 : Shape := ⟨3, ![64, 1, 256]⟩
abbrev S64x256 : Shape := ⟨2, ![64, 256]⟩
abbrev S512x16x64 : Shape := ⟨3, ![512, 16, 64]⟩

abbrev nBuf : Space → Nat
  | .hbm => 31
  | .vmem => 5
  | .smem => 0
  | _ => 0

abbrev bufTy : (tb : Table) → Fin (tcTables nBuf tb) → BufTy
  | .hbm, ⟨0, _⟩ => ⟨S640x16x256, .f32⟩
  | .hbm, ⟨1, _⟩ => ⟨S8192x16x256, .f32⟩
  | .hbm, ⟨2, _⟩ => ⟨S640, .i32⟩
  | .hbm, ⟨3, _⟩ => ⟨S_, .f32⟩
  | .hbm, ⟨4, _⟩ => ⟨S64x16x256, .f32⟩
  | .hbm, ⟨5, _⟩ => ⟨S640x1, .i32⟩
  | .hbm, ⟨6, _⟩ => ⟨S64x16x256, .f32⟩
  | .hbm, ⟨7, _⟩ => ⟨S_, .f32⟩
  | .hbm, ⟨8, _⟩ => ⟨S640, .f32⟩
  | .hbm, ⟨9, _⟩ => ⟨S_, .f32⟩
  | .hbm, ⟨10, _⟩ => ⟨S64, .f32⟩
  | .hbm, ⟨11, _⟩ => ⟨S640x1, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1x1, .f32⟩
  | .hbm, ⟨17, _⟩ => ⟨S64x16x256, .f32⟩
  | .hbm, ⟨18, _⟩ => ⟨S64x16x256, .f32⟩
  | .hbm, ⟨19, _⟩ => ⟨S64x16x256, .f32⟩
  | .hbm, ⟨20, _⟩ => ⟨S_, .f32⟩
  | .hbm, ⟨21, _⟩ => ⟨S64x16, .f32⟩
  | .hbm, ⟨22, _⟩ => ⟨S64x16x1, .f32⟩
  | .hbm, ⟨23, _⟩ => ⟨S64x16x1, .f32⟩
  | .hbm, ⟨24, _⟩ => ⟨S_, .f32⟩
  | .hbm, ⟨25, _⟩ => ⟨S64x16x1, .f32⟩
  | .hbm, ⟨26, _⟩ => ⟨S64x16x1, .f32⟩
  | .hbm, ⟨27, _⟩ => ⟨S64x16x256, .f32⟩
  | .hbm, ⟨28, _⟩ => ⟨S64x16x256, .f32⟩
  | .hbm, ⟨29, _⟩ => ⟨S64x16x256, .bf16⟩
  | .hbm, ⟨30, _⟩ => ⟨S8192x64, .f32⟩
  | .local _ .vmem, ⟨0, _⟩ => ⟨S512x16x256, .f32⟩
  | .local _ .vmem, ⟨1, _⟩ => ⟨S512x16x256, .f32⟩
  | .local _ .vmem, ⟨2, _⟩ => ⟨S64x16x256, .bf16⟩
  | .local _ .vmem, ⟨3, _⟩ => ⟨S512x64, .f32⟩
  | .local _ .vmem, ⟨4, _⟩ => ⟨S512x64, .f32⟩
  | _, _ => ⟨S640x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x16x256 : S_.BroadcastsInDim S64x16x256 (![] : Fin 0 → Fin S64x16x256.rank)
  bcast_S640_S640x1_0 : S640.BroadcastsInDim S640x1 (![0] : Fin 1 → Fin S640x1.rank)
  bcast_S_S640 : S_.BroadcastsInDim S640 (![] : Fin 0 → Fin S640.rank)
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x16x256_0_1_2 : S64x1x1.BroadcastsInDim S64x16x256 (![0, 1, 2] : Fin 3 → Fin S64x16x256.rank)
  reducesTo_S64x16x256_S64x16_d2 : S64x16x256.ReducesTo [2] S64x16
  h_S_ : 0 < S_.numel
  bcast_S64x16_S64x16x1_0_1 : S64x16.BroadcastsInDim S64x16x1 (![0, 1] : Fin 2 → Fin S64x16x1.rank)
  bcast_S_S64x16x1 : S_.BroadcastsInDim S64x16x1 (![] : Fin 0 → Fin S64x16x1.rank)
  bcast_S64x16x1_S64x16x256_0_1_2 : S64x16x1.BroadcastsInDim S64x16x256 (![0, 1, 2] : Fin 3 → Fin S64x16x256.rank)
  bitsLt_bf16_f32 : FTy.bits .bf16 < FTy.bits .f32
  inb_S512x16x256_S512x16x256_0_0_0 : ∀ a, (![0, 0, 0] : Fin 3 → Nat) a + S512x16x256.size a ≤ S512x16x256.size a
  h_S512x16x256 : 0 < S512x16x256.numel
  reduces_S512x16x256_S512x16 : S512x16x256.Reduces [2] S512x16
  shapeCasts_S512x16_S512x16x1 : S512x16.ShapeCasts S512x16x1
  broadcasts_S512x16x1_S512x16x256 : S512x16x1.Broadcasts S512x16x256
  shapeCasts_S512x16x256_S8192x256 : S512x16x256.ShapeCasts S8192x256
  inb_S64x16x256_S64x16x256_0_0_0 : ∀ a, (![0, 0, 0] : Fin 3 → Nat) a + S64x16x256.size a ≤ S64x16x256.size a
  h_S64x16x256 : 0 < S64x16x256.numel
  shapeCasts_S64x16x256_S64x16x256 : S64x16x256.ShapeCasts S64x16x256
  slices_S64x16x256_o0_0_0_S64x1x256 : S64x16x256.Slices ![0, 0, 0] S64x1x256
  shapeCasts_S64x1x256_S64x256 : S64x1x256.ShapeCasts S64x256
  shapeCasts_S8192x64_S512x16x64 : S8192x64.ShapeCasts S512x16x64
  reduces_S512x16x64_S512x64 : S512x16x64.Reduces [1] S512x64
  slices_S64x16x256_o0_1_0_S64x1x256 : S64x16x256.Slices ![0, 1, 0] S64x1x256
  slices_S64x16x256_o0_2_0_S64x1x256 : S64x16x256.Slices ![0, 2, 0] S64x1x256
  slices_S64x16x256_o0_3_0_S64x1x256 : S64x16x256.Slices ![0, 3, 0] S64x1x256
  slices_S64x16x256_o0_4_0_S64x1x256 : S64x16x256.Slices ![0, 4, 0] S64x1x256
  slices_S64x16x256_o0_5_0_S64x1x256 : S64x16x256.Slices ![0, 5, 0] S64x1x256
  slices_S64x16x256_o0_6_0_S64x1x256 : S64x16x256.Slices ![0, 6, 0] S64x1x256
  slices_S64x16x256_o0_7_0_S64x1x256 : S64x16x256.Slices ![0, 7, 0] S64x1x256
  slices_S64x16x256_o0_8_0_S64x1x256 : S64x16x256.Slices ![0, 8, 0] S64x1x256
  slices_S64x16x256_o0_9_0_S64x1x256 : S64x16x256.Slices ![0, 9, 0] S64x1x256
  slices_S64x16x256_o0_10_0_S64x1x256 : S64x16x256.Slices ![0, 10, 0] S64x1x256
  slices_S64x16x256_o0_11_0_S64x1x256 : S64x16x256.Slices ![0, 11, 0] S64x1x256
  slices_S64x16x256_o0_12_0_S64x1x256 : S64x16x256.Slices ![0, 12, 0] S64x1x256
  slices_S64x16x256_o0_13_0_S64x1x256 : S64x16x256.Slices ![0, 13, 0] S64x1x256
  slices_S64x16x256_o0_14_0_S64x1x256 : S64x16x256.Slices ![0, 14, 0] S64x1x256
  slices_S64x16x256_o0_15_0_S64x1x256 : S64x16x256.Slices ![0, 15, 0] S64x1x256
  inb_S512x64_S512x64_0_0 : ∀ a, (![0, 0] : Fin 2 → Nat) a + S512x64.size a ≤ S512x64.size a
  h_S512x64 : 0 < S512x64.numel
  scatter_S64x16x256_S640x1_S640x16x256_12_0_0_1_wf : ScatterDims.WF S64x16x256 S640x1 S640x16x256 [1, 2] [0] [0] 1
  scatter_S64_S640x1_S640_n_0_0_1_wf : ScatterDims.WF S64 S640x1 S640 [] [0] [0] 1
  dot_S8192x256_S64x256_S8192x64_1_1_0_0_n_n_wf : DotDims.WF S8192x256 S64x256 S8192x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x256.size a ≤ S8192x16x256.size a
  hwx0_0 : ∀ i : grid0.Coords, EltTy.bits .f32 = 32 ∨ (Rect.block (s := S8192x16x256) S512x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16x256.size a ≤ S64x16x256.size a
  hwx0_1 : ∀ i : grid0.Coords, EltTy.bits .bf16 = 32 ∨ (Rect.block (s := S64x16x256) S64x16x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)

variable [Facts₀]

def scatter_S64x16x256_S640x1_S640x16x256_12_0_0_1 : ScatterDims S64x16x256 S640x1 S640x16x256 where
  updateWindowDims := [1, 2]
  insertedWindowDims := [0]
  scatterDimsToOperandDims := [0]
  indexVectorDim := 1
  wf := scatter_S64x16x256_S640x1_S640x16x256_12_0_0_1_wf
def scatter_S64_S640x1_S640_n_0_0_1 : ScatterDims S64 S640x1 S640 where
  updateWindowDims := []
  insertedWindowDims := [0]
  scatterDimsToOperandDims := [0]
  indexVectorDim := 1
  wf := scatter_S64_S640x1_S640_n_0_0_1_wf
def dot_S8192x256_S64x256_S8192x64_1_1_0_0_n_n : DotDims S8192x256 S64x256 S8192x64 where
  lhsContracting := [1]
  rhsContracting := [1]
  lhsNonContracting := [0]
  rhsNonContracting := [0]
  lhsBatch := []
  rhsBatch := []
  wf := dot_S8192x256_S64x256_S8192x64_1_1_0_0_n_n_wf

abbrev win0_0 : Pipeline.Window sig grid0 :=
  Pipeline.Window.ofSpec (Memref.whole main_arg1) S512x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S64x16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S640x16x256 : Shape := ⟨3, ![640, 16, 256]⟩
abbrev S8192x16x256 : Shape := ⟨3, ![8192, 16, 256]⟩
abbrev S640 : Shape := ⟨1, ![640]⟩
abbrev S_ : Shape := ⟨0, ![]⟩
abbrev S64x16x256 : Shape := ⟨3, ![64, 16, 256]⟩
abbrev S640x1 : Shape := ⟨2, ![640, 1]⟩
abbrev S64 : Shape := ⟨1, ![64]⟩
abbrev S64x1x1 : Shape := ⟨3, ![64, 1, 1]⟩
abbrev S8192x16 : Shape := ⟨2, ![8192, 16]⟩
abbrev S8192x16x1 : Shape := ⟨3, ![8192, 16, 1]⟩
abbrev S64x16 : Shape := ⟨2, ![64, 16]⟩
abbrev S64x16x1 : Shape := ⟨3, ![64, 16, 1]⟩
abbrev S64x16x8192x16 : Shape := ⟨4, ![64, 16, 8192, 16]⟩
abbrev S8192x64x16x16 : Shape := ⟨4, ![8192, 64, 16, 16]⟩
abbrev S8192x64x16 : Shape := ⟨3, ![8192, 64, 16]⟩
abbrev S8192x64 : Shape := ⟨2, ![8192, 64]⟩

abbrev nBuf : Space → Nat
  | .hbm => 53
  | .vmem => 0
  | .smem => 0
  | _ => 0

abbrev bufTy : (tb : Table) → Fin (tcTables nBuf tb) → BufTy
  | .hbm, ⟨0, _⟩ => ⟨S640x16x256, .f32⟩
  | .hbm, ⟨1, _⟩ => ⟨S8192x16x256, .f32⟩
  | .hbm, ⟨2, _⟩ => ⟨S640, .i32⟩
  | .hbm, ⟨3, _⟩ => ⟨S_, .f32⟩
  | .hbm, ⟨4, _⟩ => ⟨S64x16x256, .f32⟩
  | .hbm, ⟨5, _⟩ => ⟨S640x1, .i32⟩
  | .hbm, ⟨6, _⟩ => ⟨S64x16x256, .f32⟩
  | .hbm, ⟨7, _⟩ => ⟨S_, .f32⟩
  | .hbm, ⟨8, _⟩ => ⟨S640, .f32⟩
  | .hbm, ⟨9, _⟩ => ⟨S_, .f32⟩
  | .hbm, ⟨10, _⟩ => ⟨S64, .f32⟩
  | .hbm, ⟨11, _⟩ => ⟨S640x1, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1x1, .f32⟩
  | .hbm, ⟨17, _⟩ => ⟨S64x16x256, .f32⟩
  | .hbm, ⟨18, _⟩ => ⟨S64x16x256, .f32⟩
  | .hbm, ⟨19, _⟩ => ⟨S8192x16x256, .f32⟩
  | .hbm, ⟨20, _⟩ => ⟨S_, .f32⟩
  | .hbm, ⟨21, _⟩ => ⟨S8192x16, .f32⟩
  | .hbm, ⟨22, _⟩ => ⟨S8192x16x1, .f32⟩
  | .hbm, ⟨23, _⟩ => ⟨S8192x16x1, .f32⟩
  | .hbm, ⟨24, _⟩ => ⟨S_, .f32⟩
  | .hbm, ⟨25, _⟩ => ⟨S8192x16x1, .f32⟩
  | .hbm, ⟨26, _⟩ => ⟨S8192x16x1, .f32⟩
  | .hbm, ⟨27, _⟩ => ⟨S8192x16x256, .f32⟩
  | .hbm, ⟨28, _⟩ => ⟨S8192x16x256, .f32⟩
  | .hbm, ⟨29, _⟩ => ⟨S64x16x256, .f32⟩
  | .hbm, ⟨30, _⟩ => ⟨S_, .f32⟩
  | .hbm, ⟨31, _⟩ => ⟨S64x16, .f32⟩
  | .hbm, ⟨32, _⟩ => ⟨S64x16x1, .f32⟩
  | .hbm, ⟨33, _⟩ => ⟨S64x16x1, .f32⟩
  | .hbm, ⟨34, _⟩ => ⟨S_, .f32⟩
  | .hbm, ⟨35, _⟩ => ⟨S64x16x1, .f32⟩
  | .hbm, ⟨36, _⟩ => ⟨S64x16x1, .f32⟩
  | .hbm, ⟨37, _⟩ => ⟨S64x16x256, .f32⟩
  | .hbm, ⟨38, _⟩ => ⟨S64x16x256, .f32⟩
  | .hbm, ⟨39, _⟩ => ⟨S64x16x8192x16, .f32⟩
  | .hbm, ⟨40, _⟩ => ⟨S8192x64x16x16, .f32⟩
  | .hbm, ⟨41, _⟩ => ⟨S_, .f32⟩
  | .hbm, ⟨42, _⟩ => ⟨S8192x64x16x16, .f32⟩
  | .hbm, ⟨43, _⟩ => ⟨S8192x64x16x16, .f32⟩
  | .hbm, ⟨44, _⟩ => ⟨S_, .f32⟩
  | .hbm, ⟨45, _⟩ => ⟨S8192x64x16, .f32⟩
  | .hbm, ⟨46, _⟩ => ⟨S_, .f32⟩
  | .hbm, ⟨47, _⟩ => ⟨S8192x64, .f32⟩
  | .hbm, ⟨48, _⟩ => ⟨S_, .f32⟩
  | .hbm, ⟨49, _⟩ => ⟨S8192x64x16, .f32⟩
  | .hbm, ⟨50, _⟩ => ⟨S_, .f32⟩
  | .hbm, ⟨51, _⟩ => ⟨S8192x64, .f32⟩
  | .hbm, ⟨52, _⟩ => ⟨S8192x64, .f32⟩
  | _, _ => ⟨S640x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  bcast_S_S64x16x256 : S_.BroadcastsInDim S64x16x256 (![] : Fin 0 → Fin S64x16x256.rank)
  bcast_S640_S640x1_0 : S640.BroadcastsInDim S640x1 (![0] : Fin 1 → Fin S640x1.rank)
  bcast_S_S640 : S_.BroadcastsInDim S640 (![] : Fin 0 → Fin S640.rank)
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x16x256_0_1_2 : S64x1x1.BroadcastsInDim S64x16x256 (![0, 1, 2] : Fin 3 → Fin S64x16x256.rank)
  reducesTo_S8192x16x256_S8192x16_d2 : S8192x16x256.ReducesTo [2] S8192x16
  h_S_ : 0 < S_.numel
  bcast_S8192x16_S8192x16x1_0_1 : S8192x16.BroadcastsInDim S8192x16x1 (![0, 1] : Fin 2 → Fin S8192x16x1.rank)
  bcast_S_S8192x16x1 : S_.BroadcastsInDim S8192x16x1 (![] : Fin 0 → Fin S8192x16x1.rank)
  bcast_S8192x16x1_S8192x16x256_0_1_2 : S8192x16x1.BroadcastsInDim S8192x16x256 (![0, 1, 2] : Fin 3 → Fin S8192x16x256.rank)
  reducesTo_S64x16x256_S64x16_d2 : S64x16x256.ReducesTo [2] S64x16
  bcast_S64x16_S64x16x1_0_1 : S64x16.BroadcastsInDim S64x16x1 (![0, 1] : Fin 2 → Fin S64x16x1.rank)
  bcast_S_S64x16x1 : S_.BroadcastsInDim S64x16x1 (![] : Fin 0 → Fin S64x16x1.rank)
  bcast_S64x16x1_S64x16x256_0_1_2 : S64x16x1.BroadcastsInDim S64x16x256 (![0, 1, 2] : Fin 3 → Fin S64x16x256.rank)
  transposes_S64x16x8192x16_S8192x64x16x16_2_0_3_1 : S64x16x8192x16.Transposes [2, 0, 3, 1] S8192x64x16x16
  bcast_S_S8192x64x16x16 : S_.BroadcastsInDim S8192x64x16x16 (![] : Fin 0 → Fin S8192x64x16x16.rank)
  reducesTo_S8192x64x16x16_S8192x64x16_d3 : S8192x64x16x16.ReducesTo [3] S8192x64x16
  reducesTo_S8192x64x16_S8192x64_d2 : S8192x64x16.ReducesTo [2] S8192x64
  reducesTo_S8192x64x16x16_S8192x64x16_d2 : S8192x64x16x16.ReducesTo [2] S8192x64x16
  scatter_S64x16x256_S640x1_S640x16x256_12_0_0_1_wf : ScatterDims.WF S64x16x256 S640x1 S640x16x256 [1, 2] [0] [0] 1
  scatter_S64_S640x1_S640_n_0_0_1_wf : ScatterDims.WF S64 S640x1 S640 [] [0] [0] 1
  dot_S64x16x256_S8192x16x256_S64x16x8192x16_2_2_01_01_n_n_wf : DotDims.WF S64x16x256 S8192x16x256 S64x16x8192x16 [2] [2] [0, 1] [0, 1] [] []

variable [Facts₀]

def scatter_S64x16x256_S640x1_S640x16x256_12_0_0_1 : ScatterDims S64x16x256 S640x1 S640x16x256 where
  updateWindowDims := [1, 2]
  insertedWindowDims := [0]
  scatterDimsToOperandDims := [0]
  indexVectorDim := 1
  wf := scatter_S64x16x256_S640x1_S640x16x256_12_0_0_1_wf
def scatter_S64_S640x1_S640_n_0_0_1 : ScatterDims S64 S640x1 S640 where
  updateWindowDims := []
  insertedWindowDims := [0]
  scatterDimsToOperandDims := [0]
  indexVectorDim := 1
  wf := scatter_S64_S640x1_S640_n_0_0_1_wf
def dot_S64x16x256_S8192x16x256_S64x16x8192x16_2_2_01_01_n_n : DotDims S64x16x256 S8192x16x256 S64x16x8192x16 where
  lhsContracting := [2]
  rhsContracting := [2]
  lhsNonContracting := [0, 1]
  rhsNonContracting := [0, 1]
  lhsBatch := []
  rhsBatch := []
  wf := dot_S64x16x256_S8192x16x256_S64x16x8192x16_2_2_01_01_n_n_wf

class Facts : Prop extends Facts₀ where

variable [Facts]
-- ==== Proof.MatchDist.lean ====
/-
  The bidirectional min-sum matching distance between one query sequence (16 frames of 256 features) and one class
  prototype (16 frames of 256 features), over the extended reals.

  Each query frame is divided by max(‖frame‖₂, ε); the cosine distance of query frame t and prototype frame s is
  1 − ⟨q̂_t, p_s⟩; the matching distance is  Σ_t min_s dist(t, s) + Σ_s min_t dist(t, s).
  Both minima start from the word +∞ and the three constants (ε, 1, +∞) stay the words the programs print.

  Also here: a minimum over sixteen frames, started at +∞, is the left-nested chain of fifteen binary minima, and a sum over
  sixteen frames is the left-nested chain started at 0 — the two shapes in which an unrolled loop spells them.
-/
import Idealize.ShloMosaic.PureOps.Ideal.Laws
import Idealize.ShloMosaic.Lib.ValueIdx

noncomputable section

open Idealize.ShloMosaic

namespace Cert.MatchDist

/-- The f32 word 0x7F800000 is +∞. -/
theorem inf_word : Ideal.ofBits .f32 0x7F800000#32 = (⊤ : EReal) := by
  simp [Ideal.ofBits, Ideal.ieee]

/-- Entry d of query frame t after the L2 normalisation with floor ε on the norm. -/
def unitFrame (row : Fin 16 → Fin 256 → EReal) (t : Fin 16) (d : Fin 256) : EReal :=
  Ideal.div (row t d) (max (Ideal.sqrt (∑ k : Fin 256, row t k * row t k)) (Ideal.ofBits .f32 0x2B8CBCCC#32))

/-- Cosine distance of (normalised) query frame t and prototype frame s. -/
def dist (row P : Fin 16 → Fin 256 → EReal) (t s : Fin 16) : EReal :=
  Ideal.ofBits .f32 0x3F800000#32 - ∑ d : Fin 256, unitFrame row t d * P s d

/-- Σ_t min_s dist + Σ_s min_t dist. -/
def biMinSum (row P : Fin 16 → Fin 256 → EReal) : EReal :=
  (∑ t : Fin 16, (Finset.univ : Finset (Fin 16)).fold min (Ideal.ofBits .f32 0x7F800000#32) (fun s => dist row P t s))
    + ∑ s : Fin 16, (Finset.univ : Finset (Fin 16)).fold min (Ideal.ofBits .f32 0x7F800000#32) (fun t => dist row P t s)

/-- The whole result: entry (q, c) is the matching distance of query sequence q and prototype c. -/
def matchArr (Q : (⟨3, ![8192, 16, 256]⟩ : Shape).Idx → EReal) (P : (⟨3, ![64, 16, 256]⟩ : Shape).Idx → EReal) :
    (⟨2, ![8192, 64]⟩ : Shape).Idx → EReal :=
  fun i => biMinSum (fun t d => Q (ValueIdx.ix3 (⟨(i 0).val, (i 0).isLt⟩ : Fin 8192) t d))
    (fun s d => P (ValueIdx.ix3 (⟨(i 1).val, (i 1).isLt⟩ : Fin 64) s d))

/-- Splitting the last index off a fold of a commutative, associative operation over `Fin (n + 1)`. -/
theorem fold_univ_castSucc {α : Type} (op : α → α → α) [hc : Std.Commutative op] [ha : Std.Associative op] (b : α) {n : Nat}
    (f : Fin (n + 1) → α) :
    (Finset.univ : Finset (Fin (n + 1))).fold op b f
      = op ((Finset.univ : Finset (Fin n)).fold op b (fun i => f i.castSucc)) (f (Fin.last n)) := by
  rw [Fin.univ_castSuccEmb, Finset.fold_cons, Finset.fold_map]
  exact hc.comm _ _

/-- A minimum over sixteen indices from +∞ is the chain of binary minima in index order. -/
theorem fold_min_sixteen (f : Fin 16 → EReal) :
    (Finset.univ : Finset (Fin 16)).fold min (Ideal.ofBits .f32 0x7F800000#32) f
      = min (min (min (min (min (min (min (min (min (min (min (min (min (min (min (f 0) (f 1)) (f 2)) (f 3)) (f 4)) (f 5)) (f 6))
          (f 7)) (f 8)) (f 9)) (f 10)) (f 11)) (f 12)) (f 13)) (f 14)) (f 15) := by
  rw [inf_word]
  simp only [fold_univ_castSucc, Finset.univ_eq_empty, Finset.fold_empty, top_inf_eq, min_top_left]
  rfl

/-- A sum over sixteen indices is the chain of additions from 0 in index order. -/
theorem sum_sixteen (g : Fin 16 → EReal) :
    ∑ s : Fin 16, g s
      = ((((((((((((((((0 + g 0) + g 1) + g 2) + g 3) + g 4) + g 5) + g 6) + g 7) + g 8) + g 9) + g 10) + g 11) + g 12) + g 13)
          + g 14) + g 15) := by
  simp only [Fin.sum_univ_castSucc, Fin.sum_univ_zero]
  rfl

end Cert.MatchDist

end
-- ==== Proof.KernelRow.lean ====
/-
  What one grid point of the kernel stores, entry by entry.

  The point holds a block x0 of 512 query sequences (16 frames × 256 features each) and the resident block x1 of the 64
  normalised prototypes (16 frames × 256 features each). Its one store writes, at (b, c), the matching distance
  `biMinSum` of query sequence b of the block and prototype c:
    · every query frame is divided by max(‖frame‖, ε), and the 512 × 16 frames are laid out as 8192 rows (row 16 b + t);
    · for each prototype frame s the rows are multiplied against the 64 frames p_{c,s} — a product into a zero accumulator
      is the plain sum over the 256 features — and `1 − ·` of it, read back as [512, 16, 64], is dist(t, s) at (b, t, c);
    · the running minimum over s = 0 … 15 of those blocks, summed over t, is Σ_t min_s; the minimum over t of each block,
      added up from 0 in the order s = 0 … 15, is Σ_s min_t.
-/
import proofs.«156731_j29283087024824_1_alg».proof.Proof.Gen.KernelIdeal.Skeleton
import proofs.«156731_j29283087024824_1_alg».proof.Proof.MatchDist
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Row

open Cert.KernelIdeal Cert.KernelIdeal.Gen Cert.MatchDist

/-- Query sequence b of a block: frame t, feature d. -/
abbrev seqOf (x0 : Vec Ideal S512x16x256 .f32) (b : Fin 512) : Fin 16 → Fin 256 → EReal := fun t d => x0 (ix3 b t d)

/-- Prototype c of the resident block: frame s, feature d. -/
abbrev protoOf (x1 : Vec Ideal S64x16x256 .bf16) (c : Fin 64) : Fin 16 → Fin 256 → EReal := fun s d => x1 (ix3 c s d)

/-! ## The normalised query rows -/

/-- The sum over the feature axis of the squared block, at (b, t). -/
theorem sumsq_apply (x0 : FVec Ideal S512x16x256 .f32) (h : S512x16x256.Reduces [2] S512x16) (hφ : FKind.Formats .f32)
    (hacc : (0x00000000#32 : BitVec 32) = FKind.add.neutral .f32 hφ) (b : Fin 512) (t : Fin 16) :
    multiReduction .add [2] S512x16 (mulf x0 x0) 0x00000000#32 h hφ hacc (ix2 b t)
      = ∑ k : Fin 256, x0 (ix3 b t k) * x0 (ix3 b t k) := by
  refine (Ideal.multiReduction_add_single (mulf x0 x0) _ h hφ hacc (ix2 b t)).trans ?_
  refine Finset.sum_congr rfl fun k _ => ?_
  have e : h.lift (ix2 b t) k = ix3 b t k :=
    funext fun a => Fin.ext (by match a with | ⟨0, _⟩ => rfl | ⟨1, _⟩ => rfl | ⟨2, _⟩ => rfl)
  exact congrArg (fun i => x0 i * x0 i) e

/-- Row 16 b + t of the 8192 normalised rows is frame t of sequence b divided by max(‖frame‖, ε). -/
theorem unitRows_apply (x0 : Vec Ideal S512x16x256 .f32) (b : Fin 512) (t : Fin 16) (d : Fin 256) (r : Fin 8192)
    (hr : r.val = b.val * 16 + t.val) :
    k0_pay2 (F := Ideal) x0 (ix2 r d) = unitFrame (seqOf x0 b) t d := by
  unfold k0_pay2
  refine (shapeCast_apply _ _ (ix2 r d) (ix3 b t d) ?_).trans ?_
  · rw [Shape.rowMajor_val_three, Shape.rowMajor_val_two]
    show (b.val * 16 + t.val) * 256 + d.val = r.val * 256 + d.val
    rw [hr]
  show Ideal.div (x0 (ix3 b t d)) (broadcastTo S512x16x256 _ _ (ix3 b t d)) = _
  unfold unitFrame
  congr 1
  refine (broadcastTo_apply _ _ (ix3 b t d) (ix3 b t 0) ?_).trans ?_
  · intro a
    match a with
    | ⟨0, _⟩ => show b.val = if (512 : Nat) = 1 then 0 else b.val; rw [if_neg (by decide)]
    | ⟨1, _⟩ => show t.val = if (16 : Nat) = 1 then 0 else t.val; rw [if_neg (by decide)]
    | ⟨2, _⟩ => show 0 = if (1 : Nat) = 1 then 0 else d.val; rw [if_pos rfl]
  show max (Ideal.sqrt (shapeCast S512x16x1 _ _ (ix3 b t 0))) (Ideal.ofBits .f32 0x2B8CBCCC#32) = _
  congr 2
  refine (shapeCast_apply _ _ (ix3 b t 0) (ix2 b t) ?_).trans ?_
  · rw [Shape.rowMajor_val_three, Shape.rowMajor_val_two]
    show b.val * 16 + t.val = (b.val * 16 + t.val) * 1 + 0
    omega
  exact sumsq_apply x0 _ _ _ b t

/-! ## One prototype frame out of the resident block -/

/-- The resident block is used as loaded (the cast to its own shape changes nothing). -/
theorem resident_eq (x1 : Vec Ideal S64x16x256 .bf16) : k0_pay3 (F := Ideal) x1 = x1 := shapeCast_self _ _

/-- Frame o of every prototype, as a [64, 256] matrix: entry (c, d) is the block at (c, o, d). -/
theorem frame_apply (v12 : FVec Ideal S64x16x256 .bf16) (o : Nat) (ho : o < 16) (hs : S64x16x256.Slices ![0, o, 0] S64x1x256)
    (h1 : S64x1x256.ShapeCasts S64x256) (c : Fin 64) (d : Fin 256) :
    shapeCast S64x256 (extractStridedSlice S64x1x256 ![0, o, 0] v12 hs) h1 (ix2 c d) = v12 (ix3 c ⟨o, ho⟩ d) := by
  refine (shapeCast_apply _ h1 (ix2 c d) (ix3 c 0 d) ?_).trans ?_
  · rw [Shape.rowMajor_val_three, Shape.rowMajor_val_two]
    show (c.val * 1 + 0) * 256 + d.val = c.val * 256 + d.val
    omega
  refine extractStridedSlice_apply _ _ hs (ix3 c 0 d) (ix3 c ⟨o, ho⟩ d) ?_
  intro a
  match a with
  | ⟨0, _⟩ => show c.val = 0 + c.val; omega
  | ⟨1, _⟩ => show o = o + 0; omega
  | ⟨2, _⟩ => show d.val = 0 + d.val; omega

/-! ## The rows against one frame: a product into the zero accumulator is the sum over the features -/

theorem lhs_axis0 (i : S8192x64.Idx) (q : dot_S8192x256_S64x256_S8192x64_1_1_0_0_n_n.contr.Idx) :
    (dot_S8192x256_S64x256_S8192x64_1_1_0_0_n_n.lhsIdx i q 0).val = (i 0).val := by
  unfold DotDims.lhsIdx
  rw [dif_neg (show ¬(0 : Fin S8192x256.rank) ∈ dot_S8192x256_S64x256_S8192x64_1_1_0_0_n_n.lhsBatch by decide), dif_pos (show (0 : Fin S8192x256.rank) ∈ dot_S8192x256_S64x256_S8192x64_1_1_0_0_n_n.lhsNonContracting by decide)]
  rfl
theorem lhs_axis1 (i : S8192x64.Idx) (q : dot_S8192x256_S64x256_S8192x64_1_1_0_0_n_n.contr.Idx) :
    (dot_S8192x256_S64x256_S8192x64_1_1_0_0_n_n.lhsIdx i q 1).val = (q ⟨0, by decide⟩).val :=
  dot_S8192x256_S64x256_S8192x64_1_1_0_0_n_n.lhsIdx_val_of_single rfl i q
theorem rhs_axis0 (i : S8192x64.Idx) (q : dot_S8192x256_S64x256_S8192x64_1_1_0_0_n_n.contr.Idx) :
    (dot_S8192x256_S64x256_S8192x64_1_1_0_0_n_n.rhsIdx i q 0).val = (i 1).val := by
  unfold DotDims.rhsIdx
  rw [dif_neg (show ¬(0 : Fin S64x256.rank) ∈ dot_S8192x256_S64x256_S8192x64_1_1_0_0_n_n.rhsBatch by decide), dif_pos (show (0 : Fin S64x256.rank) ∈ dot_S8192x256_S64x256_S8192x64_1_1_0_0_n_n.rhsNonContracting by decide)]
  rfl
theorem rhs_axis1 (i : S8192x64.Idx) (q : dot_S8192x256_S64x256_S8192x64_1_1_0_0_n_n.contr.Idx) :
    (dot_S8192x256_S64x256_S8192x64_1_1_0_0_n_n.rhsIdx i q 1).val = (q ⟨0, by decide⟩).val :=
  dot_S8192x256_S64x256_S8192x64_1_1_0_0_n_n.rhsIdx_val_of_single rfl i q

/-- Entry (r, c) of rows · framesᵀ. -/
theorem rowsTimesFrame_apply (L : FVec Ideal S8192x256 .bf16) (R : FVec Ideal S64x256 .bf16) (r : Fin 8192) (c : Fin 64) :
    matmul dot_S8192x256_S64x256_S8192x64_1_1_0_0_n_n none L R (constant S8192x64 .f32 0x00000000#32) (ix2 r c)
      = ∑ k : Fin 256, L (ix2 r k) * R (ix2 c k) := by
  simp only [matmul]
  rw [Ideal.matmul_constant_zero_apply, ← Equiv.sum_comp (ValueIdx.contrEquiv1 dot_S8192x256_S64x256_S8192x64_1_1_0_0_n_n 256 rfl rfl).symm]
  refine Finset.sum_congr rfl fun k _ => ?_
  have hk := ValueIdx.contrEquiv1_symm_val dot_S8192x256_S64x256_S8192x64_1_1_0_0_n_n 256 rfl rfl k
  have el : dot_S8192x256_S64x256_S8192x64_1_1_0_0_n_n.lhsIdx (ix2 r c) ((ValueIdx.contrEquiv1 dot_S8192x256_S64x256_S8192x64_1_1_0_0_n_n 256 rfl rfl).symm k) = ix2 r k := funext fun a => Fin.ext (by
    match a with
    | ⟨0, _⟩ => exact lhs_axis0 _ _
    | ⟨1, _⟩ => exact (lhs_axis1 _ _).trans hk)
  have er : dot_S8192x256_S64x256_S8192x64_1_1_0_0_n_n.rhsIdx (ix2 r c) ((ValueIdx.contrEquiv1 dot_S8192x256_S64x256_S8192x64_1_1_0_0_n_n 256 rfl rfl).symm k) = ix2 c k := funext fun a => Fin.ext (by
    match a with
    | ⟨0, _⟩ => exact rhs_axis0 _ _
    | ⟨1, _⟩ => exact (rhs_axis1 _ _).trans hk)
  rw [el, er]

/-- The distance block of one prototype frame: `1 −` the product, read as [512, 16, 64]. -/
def frameDist (q : FVec Ideal S8192x256 .bf16) (p : FVec Ideal S64x1x256 .bf16) : FVec Ideal S512x16x64 .f32 :=
  subf (broadcast S512x16x64 (Scalar.ofBits .f32 0x3F800000#32))
    (shapeCast S512x16x64 (matmul dot_S8192x256_S64x256_S8192x64_1_1_0_0_n_n none q (shapeCast S64x256 p shapeCasts_S64x1x256_S64x256)
      (constant S8192x64 .f32 0x00000000#32)) shapeCasts_S8192x64_S512x16x64)

/-- At (b, t, c) it is 1 − ⟨row 16 b + t, frame of prototype c⟩. -/
theorem frameDist_rows (q : FVec Ideal S8192x256 .bf16) (p : FVec Ideal S64x1x256 .bf16) (b : Fin 512) (t : Fin 16) (c : Fin 64)
    (r : Fin 8192) (hr : r.val = b.val * 16 + t.val) :
    frameDist q p (ix3 b t c)
      = Ideal.ofBits .f32 0x3F800000#32 - ∑ k : Fin 256, q (ix2 r k) * shapeCast S64x256 p shapeCasts_S64x1x256_S64x256 (ix2 c k) := by
  unfold frameDist
  show Ideal.ofBits .f32 0x3F800000#32 - shapeCast S512x16x64 _ _ (ix3 b t c) = _
  congr 1
  refine (shapeCast_apply _ _ (ix3 b t c) (ix2 r c) ?_).trans (rowsTimesFrame_apply q _ r c)
  rw [Shape.rowMajor_val_two, Shape.rowMajor_val_three]
  show r.val * 64 + c.val = (b.val * 16 + t.val) * 64 + c.val
  rw [hr]

/-- The kernel's frame-o distance block at (b, t, c) is dist(t, o) of sequence b and prototype c. -/
theorem frameDist_apply (x0 : Vec Ideal S512x16x256 .f32) (x1 : Vec Ideal S64x16x256 .bf16) (o : Nat) (ho : o < 16)
    (hs : S64x16x256.Slices ![0, o, 0] S64x1x256) (b : Fin 512) (t : Fin 16) (c : Fin 64) :
    frameDist (k0_pay2 (F := Ideal) x0) (extractStridedSlice S64x1x256 ![0, o, 0] (k0_pay3 (F := Ideal) x1) hs) (ix3 b t c)
      = MatchDist.dist (seqOf x0 b) (protoOf x1 c) t ⟨o, ho⟩ := by
  refine (frameDist_rows _ _ b t c ⟨b.val * 16 + t.val, by have := b.isLt; have := t.isLt; omega⟩ rfl).trans ?_
  unfold MatchDist.dist
  congr 1
  refine Finset.sum_congr rfl fun k _ => ?_
  refine congrArg₂ (· * ·) (unitRows_apply x0 b t k _ rfl) ?_
  refine (frame_apply _ o ho hs _ c k).trans ?_
  rw [resident_eq]

/-! ## The two reductions over the query frames -/

/-- The minimum over the frame axis of a [512, 16, 64] block, at (b, c): the fold of `min` from +∞ over t. -/
theorem minOverFrames_apply (u : FVec Ideal S512x16x64 .f32) (h : S512x16x64.Reduces [1] S512x64) (hφ : FKind.Formats .f32)
    (hacc : (0x7F800000#32 : BitVec 32) = FKind.minimumf.neutral .f32 hφ) (b : Fin 512) (c : Fin 64) :
    multiReduction .minimumf [1] S512x64 u 0x7F800000#32 h hφ hacc (ix2 b c)
      = (Finset.univ : Finset (Fin 16)).fold min (Ideal.ofBits .f32 0x7F800000#32) (fun t => u (ix3 b t c)) := by
  refine (multiReduction_minimumf_eq_fold u _ h hφ hacc (ix2 b c)).trans ?_
  refine (h.fold_filter_drop_single _ _ u (ix2 b c)).trans ?_
  show (Finset.univ : Finset (Fin 16)).fold min (Ideal.ofBits .f32 0x7F800000#32) (u ∘ h.lift (ix2 b c)) = _
  congr 1
  funext t
  exact congrArg u (funext fun a => Fin.ext (by match a with | ⟨0, _⟩ => rfl | ⟨1, _⟩ => rfl | ⟨2, _⟩ => rfl))

/-- The sum over the frame axis of a [512, 16, 64] block, at (b, c). -/
theorem sumOverFrames_apply (u : FVec Ideal S512x16x64 .f32) (h : S512x16x64.Reduces [1] S512x64) (hφ : FKind.Formats .f32)
    (hacc : (0x00000000#32 : BitVec 32) = FKind.add.neutral .f32 hφ) (b : Fin 512) (c : Fin 64) :
    multiReduction .add [1] S512x64 u 0x00000000#32 h hφ hacc (ix2 b c) = ∑ t : Fin 16, u (ix3 b t c) := by
  refine (Ideal.multiReduction_add_single u _ h hφ hacc (ix2 b c)).trans ?_
  refine Finset.sum_congr rfl fun t _ => ?_
  exact congrArg u (funext fun a => Fin.ext (by match a with | ⟨0, _⟩ => rfl | ⟨1, _⟩ => rfl | ⟨2, _⟩ => rfl))

/-- min over t, and sum over t, in the kernel's spelling. -/
def minT (u : FVec Ideal S512x16x64 .f32) : FVec Ideal S512x64 .f32 :=
  multiReduction .minimumf [1] S512x64 u 0x7F800000#32 reduces_S512x16x64_S512x64 (.inl rfl) rfl
def sumT (u : FVec Ideal S512x16x64 .f32) : FVec Ideal S512x64 .f32 :=
  multiReduction .add [1] S512x64 u 0x00000000#32 reduces_S512x16x64_S512x64 (.inl rfl) rfl

theorem minT_apply (u : FVec Ideal S512x16x64 .f32) (b : Fin 512) (c : Fin 64) :
    minT u (ix2 b c) = (Finset.univ : Finset (Fin 16)).fold min (Ideal.ofBits .f32 0x7F800000#32) (fun t => u (ix3 b t c)) :=
  minOverFrames_apply u _ _ _ b c
theorem sumT_apply (u : FVec Ideal S512x16x64 .f32) (b : Fin 512) (c : Fin 64) :
    sumT u (ix2 b c) = ∑ t : Fin 16, u (ix3 b t c) :=
  sumOverFrames_apply u _ _ _ b c

/-! ## The store's value -/

/-- The kernel's distance block for prototype frame o, of the point's two blocks. -/
def fdist (x0 : Vec Ideal S512x16x256 .f32) (x1 : Vec Ideal S64x16x256 .bf16) (o : Nat) (hs : S64x16x256.Slices ![0, o, 0] S64x1x256) :
    FVec Ideal S512x16x64 .f32 :=
  frameDist (k0_pay2 (F := Ideal) x0) (extractStridedSlice S64x1x256 ![0, o, 0] (k0_pay3 (F := Ideal) x1) hs)

theorem fdist_apply (x0 : Vec Ideal S512x16x256 .f32) (x1 : Vec Ideal S64x16x256 .bf16) (o : Nat) (ho : o < 16)
    (hs : S64x16x256.Slices ![0, o, 0] S64x1x256) (b : Fin 512) (t : Fin 16) (c : Fin 64) :
    fdist x0 x1 o hs (ix3 b t c) = MatchDist.dist (seqOf x0 b) (protoOf x1 c) t ⟨o, ho⟩ :=
  frameDist_apply x0 x1 o ho hs b t c

/-- The stored vector: the sum over t of the running minimum over the sixteen frames' distance blocks, plus the minima over t
    of the sixteen blocks added up from 0 in frame order. -/
def stored (x0 : Vec Ideal S512x16x256 .f32) (x1 : Vec Ideal S64x16x256 .bf16) : FVec Ideal S512x64 .f32 :=
  k0_pay1 (k0_pay2 x0) (k0_pay3 x1) (k0_pay23 (k0_pay2 x0) (k0_pay3 x1) (k0_pay15 (k0_pay2 x0) (k0_pay3 x1) (k0_pay7 x0 x1) (k0_pay9 x1)) (k0_pay17 (k0_pay3 x1))) (k0_pay24 (k0_pay2 x0) (k0_pay3 x1) (k0_pay16 (k0_pay2 x0) (k0_pay3 x1) (k0_pay8 x0 x1) (k0_pay9 x1)) (k0_pay17 (k0_pay3 x1))) (k0_pay25 (k0_pay3 x1))

theorem stored_eq (x0 : Vec Ideal S512x16x256 .f32) (x1 : Vec Ideal S64x16x256 .bf16) :
    stored x0 x1
      = addf (sumT (minimumf (minimumf (minimumf (minimumf (minimumf (minimumf (minimumf (minimumf (minimumf (minimumf (minimumf (minimumf (minimumf (minimumf (minimumf (fdist x0 x1 0 slices_S64x16x256_o0_0_0_S64x1x256) (fdist x0 x1 1 slices_S64x16x256_o0_1_0_S64x1x256)) (fdist x0 x1 2 slices_S64x16x256_o0_2_0_S64x1x256)) (fdist x0 x1 3 slices_S64x16x256_o0_3_0_S64x1x256)) (fdist x0 x1 4 slices_S64x16x256_o0_4_0_S64x1x256)) (fdist x0 x1 5 slices_S64x16x256_o0_5_0_S64x1x256)) (fdist x0 x1 6 slices_S64x16x256_o0_6_0_S64x1x256)) (fdist x0 x1 7 slices_S64x16x256_o0_7_0_S64x1x256)) (fdist x0 x1 8 slices_S64x16x256_o0_8_0_S64x1x256)) (fdist x0 x1 9 slices_S64x16x256_o0_9_0_S64x1x256)) (fdist x0 x1 10 slices_S64x16x256_o0_10_0_S64x1x256)) (fdist x0 x1 11 slices_S64x16x256_o0_11_0_S64x1x256)) (fdist x0 x1 12 slices_S64x16x256_o0_12_0_S64x1x256)) (fdist x0 x1 13 slices_S64x16x256_o0_13_0_S64x1x256)) (fdist x0 x1 14 slices_S64x16x256_o0_14_0_S64x1x256)) (fdist x0 x1 15 slices_S64x16x256_o0_15_0_S64x1x256)))
          (addf (addf (addf (addf (addf (addf (addf (addf (addf (addf (addf (addf (addf (addf (addf (addf (broadcast S512x64 (Scalar.ofBits .f32 0x00000000#32)) (minT (fdist x0 x1 0 slices_S64x16x256_o0_0_0_S64x1x256))) (minT (fdist x0 x1 1 slices_S64x16x256_o0_1_0_S64x1x256))) (minT (fdist x0 x1 2 slices_S64x16x256_o0_2_0_S64x1x256))) (minT (fdist x0 x1 3 slices_S64x16x256_o0_3_0_S64x1x256))) (minT (fdist x0 x1 4 slices_S64x16x256_o0_4_0_S64x1x256))) (minT (fdist x0 x1 5 slices_S64x16x256_o0_5_0_S64x1x256))) (minT (fdist x0 x1 6 slices_S64x16x256_o0_6_0_S64x1x256))) (minT (fdist x0 x1 7 slices_S64x16x256_o0_7_0_S64x1x256))) (minT (fdist x0 x1 8 slices_S64x16x256_o0_8_0_S64x1x256))) (minT (fdist x0 x1 9 slices_S64x16x256_o0_9_0_S64x1x256))) (minT (fdist x0 x1 10 slices_S64x16x256_o0_10_0_S64x1x256))) (minT (fdist x0 x1 11 slices_S64x16x256_o0_11_0_S64x1x256))) (minT (fdist x0 x1 12 slices_S64x16x256_o0_12_0_S64x1x256))) (minT (fdist x0 x1 13 slices_S64x16x256_o0_13_0_S64x1x256))) (minT (fdist x0 x1 14 slices_S64x16x256_o0_14_0_S64x1x256))) (minT (fdist x0 x1 15 slices_S64x16x256_o0_15_0_S64x1x256))) := rfl

/-- THE STORE AT (b, c): the matching distance of query sequence b of the block and prototype c. -/
theorem stored_apply (x0 : Vec Ideal S512x16x256 .f32) (x1 : Vec Ideal S64x16x256 .bf16) (b : Fin 512) (c : Fin 64) :
    stored x0 x1 (ix2 b c) = biMinSum (seqOf x0 b) (protoOf x1 c) := by
  rw [stored_eq]
  unfold biMinSum
  refine congrArg₂ (· + ·) ?_ ?_
  · refine (sumT_apply _ b c).trans (Finset.sum_congr rfl fun t _ => ?_)
    rw [fold_min_sixteen]
    simp only [minimumf_apply, fdist_apply x0 x1 0 (by decide), fdist_apply x0 x1 1 (by decide), fdist_apply x0 x1 2 (by decide), fdist_apply x0 x1 3 (by decide), fdist_apply x0 x1 4 (by decide), fdist_apply x0 x1 5 (by decide), fdist_apply x0 x1 6 (by decide), fdist_apply x0 x1 7 (by decide), fdist_apply x0 x1 8 (by decide), fdist_apply x0 x1 9 (by decide), fdist_apply x0 x1 10 (by decide), fdist_apply x0 x1 11 (by decide), fdist_apply x0 x1 12 (by decide), fdist_apply x0 x1 13 (by decide), fdist_apply x0 x1 14 (by decide), fdist_apply x0 x1 15 (by decide)]
    rfl
  · rw [sum_sixteen]
    simp only [addf_apply, broadcast_apply, minT_apply, fdist_apply x0 x1 0 (by decide), fdist_apply x0 x1 1 (by decide), fdist_apply x0 x1 2 (by decide), fdist_apply x0 x1 3 (by decide), fdist_apply x0 x1 4 (by decide), fdist_apply x0 x1 5 (by decide), fdist_apply x0 x1 6 (by decide), fdist_apply x0 x1 7 (by decide), fdist_apply x0 x1 8 (by decide), fdist_apply x0 x1 9 (by decide), fdist_apply x0 x1 10 (by decide), fdist_apply x0 x1 11 (by decide), fdist_apply x0 x1 12 (by decide), fdist_apply x0 x1 13 (by decide), fdist_apply x0 x1 14 (by decide), fdist_apply x0 x1 15 (by decide)]
    rw [show (Scalar.ofBits (F := Ideal) .f32 0x00000000#32 : EReal) = 0 from Ideal.ofBits_zero_f32]
    rfl

end Cert.KernelIdeal.Row

end
-- ==== Proof.KernelArray.lean ====
/-
  From the sixteen grid points to the whole result array of the kernel.

  Grid point t stages query sequences 512 t … 512 t + 511 (window 0, moving along the first axis) and the whole array of the
  64 normalised prototypes (window 1, resident: every block index is 0), and writes back rows 512 t … 512 t + 511 of the
  [8192, 64] result (window 2). What it writes at (b, c) is the matching distance of sequence 512 t + b and prototype c, so it is
  block t of ONE function of the two arrays, `matchArr`; the sixteen row blocks cover the result (row r lies in block r / 512),
  hence the result array ends holding `matchArr` of the query array and of the prototype array the call was handed.
-/
import proofs.«156731_j29283087024824_1_alg».proof.Proof.Gen.KernelIdeal.Value
import proofs.«156731_j29283087024824_1_alg».proof.Proof.KernelRow
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Row Cert.MatchDist

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The three index maps over the grid: the query window and the result window sit at block t of their first axis, the
    prototype window always at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The query block at point t is sequences 512 t … 512 t + 511 of the query array. -/
theorem queryBlock_apply (c : Dev nD) (t : Fin cfg0.N) (b : Fin 512) (f : Fin 16) (d : Fin 256) (q : Fin 8192)
    (hq : q.val = t.val * 512 + b.val) :
    (iblk (F := Ideal) m c 0 t : Vec Ideal S512x16x256 .f32) (ix3 b f d)
      = (V (F := Ideal) m c main_arg1 : S8192x16x256.Idx → EReal) (ix3 q f d) := by
  obtain ⟨e0, e1, e2, -⟩ := idx_facts t
  unfold iblk
  rw [View.read_apply]
  show V m c main_arg1 _ = V m c main_arg1 _
  congr 1
  funext a
  apply Fin.ext
  match a with
  | ⟨0, _⟩ => show win0_0.index t (0 : Fin 3) * 512 + 1 * b.val = q.val; rw [e0, hq]; omega
  | ⟨1, _⟩ => show win0_0.index t (1 : Fin 3) * 16 + 1 * f.val = f.val; rw [e1]; omega
  | ⟨2, _⟩ => show win0_0.index t (2 : Fin 3) * 256 + 1 * d.val = d.val; rw [e2]; omega

/-- The prototype block at every point is the whole prototype array. -/
theorem protoBlock_apply (c : Dev nD) (t : Fin cfg0.N) (i : S64x16x256.Idx) :
    (iblk (F := Ideal) m c 1 t : Vec Ideal S64x16x256 .bf16) i = (V (F := Ideal) m c main_v17 : S64x16x256.Idx → EReal) i := by
  obtain ⟨-, -, -, e0, e1, e2, -⟩ := idx_facts t
  unfold iblk
  rw [View.read_apply]
  show V m c main_v17 _ = V m c main_v17 _
  congr 1
  funext a
  apply Fin.ext
  match a with
  | ⟨0, _⟩ => show win0_1.index t (0 : Fin 3) * 64 + 1 * (i 0).val = (i 0).val; rw [e0]; omega
  | ⟨1, _⟩ => show win0_1.index t (1 : Fin 3) * 16 + 1 * (i 1).val = (i 1).val; rw [e1]; omega
  | ⟨2, _⟩ => show win0_1.index t (2 : Fin 3) * 256 + 1 * (i 2).val = (i 2).val; rw [e2]; omega

/-- A stored block whose query block is rows T·512 … of Q and whose prototype block is P holds, at j, `matchArr Q P` at the
    array index T·512 rows further down. -/
theorem stored_block (x0 : Vec Ideal S512x16x256 .f32) (x1 : Vec Ideal S64x16x256 .bf16)
    (Q : S8192x16x256.Idx → EReal) (P : S64x16x256.Idx → EReal) (T : Nat)
    (hx0 : ∀ (b : Fin 512) (f : Fin 16) (d : Fin 256) (q : Fin 8192), q.val = T * 512 + b.val → x0 (ix3 b f d) = Q (ix3 q f d))
    (hx1 : ∀ i, x1 i = P i) (j : S512x64.Idx) (i : S8192x64.Idx)
    (h0 : (i 0).val = T * 512 + (j 0).val) (h1 : (i 1).val = (j 1).val) :
    stored x0 x1 j = matchArr Q P i := by
  obtain ⟨b, cc, rfl⟩ : ∃ (b : Fin 512) (cc : Fin 64), j = ix2 b cc := ⟨j 0, j 1, eq_ix2 j⟩
  rw [stored_apply]
  unfold matchArr
  refine congrArg₂ biMinSum (funext fun t => funext fun d => ?_) (funext fun s => funext fun d => ?_)
  · exact hx0 b t d ⟨(i 0).val, (i 0).isLt⟩ h0
  · refine (hx1 _).trans (congrArg P (funext fun a => Fin.ext ?_))
    match a with
    | ⟨0, _⟩ => exact h1.symm
    | ⟨1, _⟩ => rfl
    | ⟨2, _⟩ => rfl

/-- WHAT POINT t WRITES BACK is block t of `matchArr` of the query array and the prototype array. -/
theorem flushed_eq (c : Dev nD) (t : Fin cfg0.N) :
    (dats (F := Ideal) m 0 c).flushed 2 t
      = ((cfg0.win 2).blk t).view.read (Elt Ideal) (matchArr (V (F := Ideal) m c main_arg1) (V (F := Ideal) m c main_v17)) := by
  rw [Cert.KernelIdeal.Value.flushed2]
  unfold out0_2
  rw [View.canon_unit_zero zero2]
  simp only [View.ld_unit_zero (S := S512x16x256) zero3, View.ld_unit_zero (S := S64x16x256) zero3]
  obtain ⟨-, -, -, -, -, -, e6, e7⟩ := idx_facts t
  funext j
  show stored (iblk m c 0 t) (iblk m c 1 t) j = matchArr (V m c main_arg1) (V m c main_v17) (((cfg0.win 2).blk t).view.emb j)
  refine stored_block (iblk m c 0 t) (iblk m c 1 t) (V m c main_arg1) (V m c main_v17) t.val
    (fun b f d q hq => queryBlock_apply m c t b f d q hq) (fun i => protoBlock_apply m c t i) j _ ?_ ?_
  · show win0_2.index t (0 : Fin 2) * 512 + 1 * (j 0).val = t.val * 512 + (j 0).val
    rw [e6]; omega
  · show win0_2.index t (1 : Fin 2) * 64 + 1 * (j 1).val = (j 1).val
    rw [e7]; omega

/-- An index of the result is in point t's block iff each coordinate is in the block's range on its axis. -/
theorem mem_blk (t : Fin cfg0.N) (i : S8192x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v18).slice (win0_2.rect t)).set ↔ _
  rw [View.set_slice_whole, Rect.mem_set_unit]
  exact Iff.rfl

/-- THE RESULT ARRAY after the run: row r is written by point r / 512, so the sixteen blocks cover it. -/
theorem final (c : Dev nD) :
    (dats (F := Ideal) m 0 c).arrAt 2 cfg0.N = matchArr (V (F := Ideal) m c main_arg1) (V (F := Ideal) m c main_v17) :=
  (dats m 0 c).arrAt_eq_of_cover 2 _ (fun t _ => flushed_eq m c t) fun i => by
    have hi0 : (i 0).val < 8192 := (i 0).isLt
    have hi1 : (i 1).val < 64 := (i 1).isLt
    have hN : cfg0.N = 16 := N_0
    obtain ⟨t, ht⟩ : ∃ t : Fin cfg0.N, t.val = (i 0).val / 512 := ⟨⟨(i 0).val / 512, by rw [hN]; omega⟩, rfl⟩
    obtain ⟨-, -, -, -, -, -, e6, e7⟩ := idx_facts t
    refine ⟨t, flush0_2 t, ?_⟩
    rw [mem_blk]
    intro a
    match a with
    | ⟨0, _⟩ =>
      show win0_2.index t (0 : Fin 2) * 512 ≤ (i 0).val ∧ (i 0).val < win0_2.index t (0 : Fin 2) * 512 + 512
      rw [e6, ht]; omega
    | ⟨1, _⟩ =>
      show win0_2.index t (1 : Fin 2) * 64 ≤ (i 1).val ∧ (i 1).val < win0_2.index t (1 : Fin 2) * 64 + 64
      rw [e7]; omega

/-- The kernel's run, read: the result array at `matchArr` of the query argument and of the prototype array the host
    operations before the call left, the arguments unchanged. -/
theorem run : θ_run defs (onTc (τ := τ) (main (F := Ideal))) ⟨m, fun _ => 0, ρ⟩ fun r => ∀ c : Dev nD,
      r.2.mem ((c : Thread nD τ).loc main_v18) = matchArr (m ((c : Thread nD τ).loc main_arg1)) (V (F := Ideal) m c main_v17)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_arg1])), (h c).2⟩)
    (Cert.KernelIdeal.Value.run_blocks m ρ)

end Cert.KernelIdeal.Whole

end
-- ==== Proof.RefRow.lean ====
/-
  The reference's result, entry by entry, is the matching distance.

  The reference normalises every query frame (divide by max(‖frame‖, ε)), contracts the normalised prototypes [64, 16, 256]
  with the normalised queries [8192, 16, 256] over the feature axis into a [64, 16, 8192, 16] array, transposes it to
  [8192, 64, 16, 16] (query, class, query frame, prototype frame), takes 1 − ·, and adds Σ_t min_s and Σ_s min_t.
  Read at (q, c): the cube's entry (q, c, t, s) is dist(t, s) of query sequence q and prototype c (the product's two factors
  in the other order), each minimum is a fold of `min` from the word +∞ over one axis, and each sum starts from the word 0.
  The normalised prototypes stay the stage the program computes them in; nothing here opens it.
-/
import proofs.«156731_j29283087024824_1_alg».proof.Proof.RefRead
import proofs.«156731_j29283087024824_1_alg».proof.Proof.MatchDist
import Idealize.ShloMosaic.Lib.ValueIdx
import Idealize.ShloMosaic.PureOps.Ideal.Laws

noncomputable section

open Idealize.ShloMosaic Idealize.ShloMosaic.ValueIdx

namespace Cert.ReferenceIdeal.Row

open Cert.ReferenceIdeal Cert.ReferenceIdeal.Gen Cert.ReferenceIdeal.ReadP Cert.MatchDist

variable (x0 : (⟨S640x16x256, .f32⟩ : BufTy).Contents (Elt Ideal)) (x1 : (⟨S8192x16x256, .f32⟩ : BufTy).Contents (Elt Ideal))
  (x2 : (⟨S640, .i32⟩ : BufTy).Contents (Elt Ideal))

/-- Query sequence q: frame t, feature d. -/
abbrev seqOf (q : Fin 8192) : Fin 16 → Fin 256 → EReal := fun t d => x1 (ix3 q t d)

/-- Normalised prototype c: frame s, feature d. -/
abbrev protoOf (c : Fin 64) : Fin 16 → Fin 256 → EReal := fun s d => val_main_v21 (F := Ideal) x0 x2 (ix3 c s d)

/-! ## The index maps of the layout operations, at coordinates -/

theorem keep_norm (q : Fin 8192) (t : Fin 16) (d : Fin 256) : idx_main_v15 (ix3 q t d) = ix3 q t 0 :=
  funext fun a => Fin.ext (by match a with | ⟨0, _⟩ => rfl | ⟨1, _⟩ => rfl | ⟨2, _⟩ => rfl)
theorem drop_unit (q : Fin 8192) (t : Fin 16) : idx_main_call0_v2 (ix3 q t 0) = ix2 q t :=
  funext fun a => Fin.ext (by match a with | ⟨0, _⟩ => rfl | ⟨1, _⟩ => rfl)
theorem feature_of (q : Fin 8192) (t : Fin 16) (k : Fin 256) : idx_main_call0_v1 (ix2 q t) k = ix3 q t k :=
  funext fun a => Fin.ext (by match a with | ⟨0, _⟩ => rfl | ⟨1, _⟩ => rfl | ⟨2, _⟩ => rfl)
theorem untranspose (q : Fin 8192) (c : Fin 64) (t s : Fin 16) : idx_main_v23 (ix4 q c t s) = ix4 c s q t :=
  funext fun a => Fin.ext (by match a with | ⟨0, _⟩ => rfl | ⟨1, _⟩ => rfl | ⟨2, _⟩ => rfl | ⟨3, _⟩ => rfl)
theorem proto_factor (q : Fin 8192) (c : Fin 64) (t s : Fin 16) (k : Fin 256) : lidx_main_v22 (ix4 c s q t) k = ix3 c s k :=
  funext fun a => Fin.ext (by match a with | ⟨0, _⟩ => rfl | ⟨1, _⟩ => rfl | ⟨2, _⟩ => rfl)
theorem query_factor (q : Fin 8192) (c : Fin 64) (t s : Fin 16) (k : Fin 256) : ridx_main_v22 (ix4 c s q t) k = ix3 q t k :=
  funext fun a => Fin.ext (by match a with | ⟨0, _⟩ => rfl | ⟨1, _⟩ => rfl | ⟨2, _⟩ => rfl)
theorem first_sum (q : Fin 8192) (c : Fin 64) (k : Fin 16) : idx_main_v27 (ix2 q c) k = ix3 q c k :=
  funext fun a => Fin.ext (by match a with | ⟨0, _⟩ => rfl | ⟨1, _⟩ => rfl | ⟨2, _⟩ => rfl)
theorem second_sum (q : Fin 8192) (c : Fin 64) (k : Fin 16) : idx_main_v29 (ix2 q c) k = ix3 q c k :=
  funext fun a => Fin.ext (by match a with | ⟨0, _⟩ => rfl | ⟨1, _⟩ => rfl | ⟨2, _⟩ => rfl)

/-! ## The normalised queries and the distance cube -/

/-- The normalised query array at (q, t, d). -/
theorem unitQuery_apply (q : Fin 8192) (t : Fin 16) (d : Fin 256) :
    val_main_v16 (F := Ideal) x1 (ix3 q t d) = unitFrame (seqOf x1 q) t d := by
  rw [val_main_v16_apply, val_main_v15_apply, keep_norm, val_main_v14_apply, val_main_v12_apply, val_main_call0_v2_apply, drop_unit,
    val_main_call0_v1_apply, val_main_v13_apply]
  simp only [feature_of, val_main_call0_v0_apply]
  show Ideal.div (x1 (ix3 q t d)) (max (Ideal.sqrt (Ideal.ofBits .f32 0x00000000#32 + ∑ k : Fin 256, x1 (ix3 q t k) * x1 (ix3 q t k)))
    (Ideal.ofBits .f32 0x2B8CBCCC#32)) = _
  rw [Ideal.ofBits_zero_f32, zero_add]
  rfl

/-- The cube at (q, c, t, s) is dist(t, s) of query sequence q and prototype c. -/
theorem cube_apply (q : Fin 8192) (c : Fin 64) (t s : Fin 16) :
    val_main_v25 (F := Ideal) x0 x1 x2 (ix4 q c t s) = MatchDist.dist (seqOf x1 q) (protoOf x0 x2 c) t s := by
  rw [val_main_v25_apply, val_main_v24_apply, val_main_v23_apply, untranspose, val_main_v22_apply]
  simp only [proto_factor, query_factor, unitQuery_apply]
  show Ideal.ofBits .f32 0x3F800000#32 - ∑ k : Fin 256, val_main_v21 (F := Ideal) x0 x2 (ix3 c s k) * unitFrame (seqOf x1 q) t k = _
  unfold MatchDist.dist
  congr 1
  exact Finset.sum_congr rfl fun k _ => mul_comm _ _

/-! ## The two minima and the result -/

/-- The minimum over the prototype frames, at (q, c, t). -/
theorem minOverProtoFrames_apply (q : Fin 8192) (c : Fin 64) (t : Fin 16) :
    val_main_v26 (F := Ideal) x0 x1 x2 (ix3 q c t)
      = (Finset.univ : Finset (Fin 16)).fold min (Ideal.ofBits .f32 0x7F800000#32) (fun s => MatchDist.dist (seqOf x1 q) (protoOf x0 x2 c) t s) := by
  unfold val_main_v26
  refine (Host.reduce_eq_fold_single FloatOps.minimumf _ _ reducesTo_S8192x64x16x16_S8192x64x16_d3 (by decide) h_S_ (ix3 q c t)).trans ?_
  show (Finset.univ : Finset (Fin 16)).fold min (Ideal.ofBits .f32 0x7F800000#32) _ = _
  congr 1
  funext s
  refine Eq.trans (congrArg (val_main_v25 (F := Ideal) x0 x1 x2) ?_) (cube_apply x0 x1 x2 q c t s)
  exact funext fun a => Fin.ext (by match a with | ⟨0, _⟩ => rfl | ⟨1, _⟩ => rfl | ⟨2, _⟩ => rfl | ⟨3, _⟩ => rfl)

/-- The minimum over the query frames, at (q, c, s). -/
theorem minOverQueryFrames_apply (q : Fin 8192) (c : Fin 64) (s : Fin 16) :
    val_main_v28 (F := Ideal) x0 x1 x2 (ix3 q c s)
      = (Finset.univ : Finset (Fin 16)).fold min (Ideal.ofBits .f32 0x7F800000#32) (fun t => MatchDist.dist (seqOf x1 q) (protoOf x0 x2 c) t s) := by
  unfold val_main_v28
  refine (Host.reduce_eq_fold_single FloatOps.minimumf _ _ reducesTo_S8192x64x16x16_S8192x64x16_d2 (by decide) h_S_ (ix3 q c s)).trans ?_
  show (Finset.univ : Finset (Fin 16)).fold min (Ideal.ofBits .f32 0x7F800000#32) _ = _
  congr 1
  funext t
  refine Eq.trans (congrArg (val_main_v25 (F := Ideal) x0 x1 x2) ?_) (cube_apply x0 x1 x2 q c t s)
  exact funext fun a => Fin.ext (by match a with | ⟨0, _⟩ => rfl | ⟨1, _⟩ => rfl | ⟨2, _⟩ => rfl | ⟨3, _⟩ => rfl)

/-- THE REFERENCE'S RESULT is `matchArr` of the query argument and the normalised prototypes. -/
theorem result_eq :
    val_main_v30 (F := Ideal) x0 x1 x2 = matchArr x1 (val_main_v21 (F := Ideal) x0 x2) := by
  funext i
  obtain ⟨q, c, rfl⟩ : ∃ (q : Fin 8192) (c : Fin 64), i = ix2 q c := ⟨i 0, i 1, eq_ix2 i⟩
  rw [val_main_v30_apply, val_main_v27_apply, val_main_v29_apply]
  simp only [first_sum, second_sum, minOverProtoFrames_apply, minOverQueryFrames_apply]
  show (Ideal.ofBits .f32 0x00000000#32 + _) + (Ideal.ofBits .f32 0x00000000#32 + _) = _
  rw [Ideal.ofBits_zero_f32, zero_add, zero_add]
  rfl

end Cert.ReferenceIdeal.Row

end
-- ==== Proof.lean ====
/-
  The kernel (query blocks streamed through a grid of sixteen points, the cosine distances of each block against the sixteen
  frames of the 64 class prototypes taken frame by frame with a running minimum) against the reference (the whole
  [8192, 64, 16, 16] distance cube, then its two min-sums), over the extended reals.

  Both programs compute the class prototypes and normalise them with the SAME host operations (segment sums, counts, the
  division, the L2 normalisation with floor ε); the kernel then casts them to bf16, which changes nothing on the extended
  reals. So the prototype array the kernel's call is handed IS the reference's normalised-prototype stage (`protos_eq`), and
  with Q the query argument both results are ONE function of (Q, that array): at (q, c)
      Σ_t min_s dist(t, s) + Σ_s min_t dist(t, s),   dist(t, s) = 1 − ⟨Q̂_{q,t}, P_{c,s}⟩,   Q̂ = Q / max(‖Q‖₂, ε)
  (`Cert.MatchDist.matchArr`). The kernel's side is Proof/KernelRow.lean (one point's store, entry by entry) and
  Proof/KernelArray.lean (the sixteen row blocks cover the result); the reference's side is Proof/RefRow.lean. The only laws
  used are that + and · on the extended reals are commutative and associative and that `min` is too, with +∞ its unit, so the
  precondition is never opened. The frames are the generated ones; the ideal pass rewrote nothing, so `preserves` is `True`.
-/
import proofs.«156731_j29283087024824_1_alg».proof.Defs
import proofs.«156731_j29283087024824_1_alg».proof.Proof.Gen.Kernel
import proofs.«156731_j29283087024824_1_alg».proof.Proof.Gen.Kernel.Skeleton
import proofs.«156731_j29283087024824_1_alg».proof.Proof.Gen.Kernel.Launch
import proofs.«156731_j29283087024824_1_alg».proof.Proof.Gen.Kernel.Points
import proofs.«156731_j29283087024824_1_alg».proof.Proof.Gen.Kernel.Frame
import proofs.«156731_j29283087024824_1_alg».proof.Proof.Gen.KernelIdeal
import proofs.«156731_j29283087024824_1_alg».proof.Proof.Gen.KernelIdeal.Skeleton
import proofs.«156731_j29283087024824_1_alg».proof.Proof.Gen.KernelIdeal.Launch
import proofs.«156731_j29283087024824_1_alg».proof.Proof.Gen.KernelIdeal.Points
import proofs.«156731_j29283087024824_1_alg».proof.Proof.Gen.KernelIdeal.Frame
import proofs.«156731_j29283087024824_1_alg».proof.Proof.Gen.ReferenceIdeal
import proofs.«156731_j29283087024824_1_alg».proof.Proof.Gen.Pre_finite_inputs
import proofs.«156731_j29283087024824_1_alg».proof.Proof.Gen.KernelIdeal.Value
import proofs.«156731_j29283087024824_1_alg».proof.Proof.KernelArray
import proofs.«156731_j29283087024824_1_alg».proof.Proof.RefRow
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo Cert.MatchDist

/-- The prototype array the region finds is the reference's normalised-prototype stage of the same two arguments, cast to
    bf16: the two programs' host operations up to there are the same, one by one (at any float instance). -/
theorem protos_cast {F : FTy → Type} [FloatOps F]
    (m : (ℓ : Loc Cert.KernelIdeal.nD Cert.KernelIdeal.τ Cert.KernelIdeal.sig) → Buf (Elt F) ℓ) (c : Dev Cert.KernelIdeal.nD) :
    Cert.KernelIdeal.Gen.V (F := F) m c Cert.KernelIdeal.main_v17
      = truncf .bf16 (Cert.ReferenceIdeal.ReadP.val_main_v21 (F := F) (m ((c : Thread Cert.KernelIdeal.nD Cert.KernelIdeal.τ).loc Cert.KernelIdeal.main_arg0))
          (m ((c : Thread Cert.KernelIdeal.nD Cert.KernelIdeal.τ).loc Cert.KernelIdeal.main_arg2))) Cert.KernelIdeal.Gen.bitsLt_bf16_f32 := by
  dsimp only [Cert.KernelIdeal.Gen.V]
  simp only [Cert.KernelIdeal.Gen.hostOps0, Cert.KernelIdeal.Gen.hostOps0_1, Cert.KernelIdeal.Gen.hostOps0_2, List.flatten_cons, List.flatten_nil,
    List.append_nil, List.cons_append, List.nil_append]
  after_results_simp <;> rfl

/-- On the extended reals the cast is the identity. -/
theorem protos_eq (m : (ℓ : Loc Cert.KernelIdeal.nD Cert.KernelIdeal.τ Cert.KernelIdeal.sig) → Buf (Elt Ideal) ℓ) (c : Dev Cert.KernelIdeal.nD) :
    (Cert.KernelIdeal.Gen.V (F := Ideal) m c Cert.KernelIdeal.main_v17 : Cert.KernelIdeal.S64x16x256.Idx → EReal)
      = Cert.ReferenceIdeal.ReadP.val_main_v21 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg2)) := by
  rw [protos_cast]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both results are `matchArr` of the query argument and of one prototype array. -/
theorem algebraic : Cert.algebraic_KernelIdeal_ReferenceIdeal := by
  intro m ρ m' ρ' _ hagree
  refine ⟨fun c => matchArr (m ((c : Thread Cert.KernelIdeal.nD Cert.KernelIdeal.τ).loc Cert.KernelIdeal.main_arg1)) (Cert.KernelIdeal.Gen.V (F := Ideal) m c Cert.KernelIdeal.main_v17),
    Cert.KernelIdeal.Whole.run m ρ, ?_⟩
  refine (θ_run Cert.ReferenceIdeal.defs _ _).mono (fun _ h c => ⟨(h c).1.trans ?_, (h c).2⟩) (Cert.ReferenceIdeal.ValueP.run (F := Ideal) m' ρ')
  rw [Cert.ReferenceIdeal.ReadP.val_main_v30_eq, Cert.ReferenceIdeal.Row.result_eq, (hagree c).1, (hagree c).2.1, (hagree c).2.2]
  exact congrArg (matchArr (m ((c : Thread Cert.KernelIdeal.nD Cert.KernelIdeal.τ).loc Cert.KernelIdeal.main_arg1))) (protos_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
